-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x4096x4096 .f32) (main_arg1 : IVec S4x4096 32) (main_arg2 : FVec F S4096x4096 .f32) (main_arg3 : FVec F S4096 .f32) (main_arg4 : FVec F S8x4096 .f32) (main_arg5 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_v13 main_v16
-- ==== Kernel.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S16384x4096 : Shape := ⟨2, ![16384, 4096]⟩
abbrev S_ : Shape := ⟨0, ![]⟩
abbrev S16384x1 : Shape := ⟨2, ![16384, 1]⟩
abbrev S1x4096 : Shape := ⟨2, ![1, 4096]⟩
abbrev S512x1024 : Shape := ⟨2, ![512, 1024]⟩
abbrev S1024x1024 : Shape := ⟨2, ![1024, 1024]⟩
abbrev S8x1024 : Shape := ⟨2, ![8, 1024]⟩
abbrev S1024x8 : Shape := ⟨2, ![1024, 8]⟩
abbrev S1x1024 : Shape := ⟨2, ![1, 1024]⟩
abbrev S512x1 : Shape := ⟨2, ![512, 1]⟩
abbrev S512x8 : Shape := ⟨2, ![512, 8]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16384x4096, .f32⟩
  | .hbm, ⟨7, _⟩ => ⟨S_, .i32⟩
  | .hbm, ⟨8, _⟩ => ⟨S4x4096, .i32⟩
  | .hbm, ⟨9, _⟩ => ⟨S4x4096, .i1⟩
  | .hbm, ⟨10, _⟩ => ⟨S4x4096, .f32⟩
  | .hbm, ⟨11, _⟩ => ⟨S16384x1, .f32⟩
  | .hbm, ⟨12, _⟩ => ⟨S1x4096, .f32⟩
  | .hbm, ⟨13, _⟩ => ⟨S16384x4096, .f32⟩
  | .hbm, ⟨14, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1024x8, .f32⟩
  | .local _ .vmem, ⟨7, _⟩ => ⟨S1024x8, .f32⟩
  | .local _ .vmem, ⟨8, _⟩ => ⟨S1x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x4096x4096_S16384x4096 : S4x4096x4096.ShapeCasts S16384x4096
  bcast_S_S4x4096 : S_.BroadcastsInDim S4x4096 (![] : Fin 0 → Fin S4x4096.rank)
  shapeCasts_S4x4096_S16384x1 : S4x4096.ShapeCasts S16384x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S8x1024_S8x1024_0_0 : ∀ a, (![0, 0] : Fin 2 → Nat) a + S8x1024.size a ≤ S8x1024.size a
  h_S8x1024 : 0 < S8x1024.numel
  inb_S1024x8_S1024x8_0_0 : ∀ a, (![0, 0] : Fin 2 → Nat) a + S1024x8.size a ≤ S1024x8.size a
  h_S1024x8 : 0 < S1024x8.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S16384x4096_S4x4096x4096 : S16384x4096.ShapeCasts S4x4096x4096
  dot_S512x1024_S1024x1024_S512x1024_1_1_0_0_n_n_wf : DotDims.WF S512x1024 S1024x1024 S512x1024 [1] [1] [0] [0] [] []
  dot_S512x1024_S8x1024_S512x8_1_1_0_0_n_n_wf : DotDims.WF S512x1024 S8x1024 S512x8 [1] [1] [0] [0] [] []
  dot_S512x8_S1024x8_S512x1024_1_1_0_0_n_n_wf : DotDims.WF S512x8 S1024x8 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x4096.size a
  hwx0_2 : ∀ i : grid0.Coords, EltTy.bits .f32 = 32 ∨ (Rect.block (s := S8x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x4096.size a
  hwx0_6 : ∀ i : grid0.Coords, EltTy.bits .f32 = 32 ∨ (Rect.block (s := S16384x4096) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S8x1024_S512x8_1_1_0_0_n_n : DotDims S512x1024 S8x1024 S512x8 where
  lhsContracting := [1]
  rhsContracting := [1]
  lhsNonContracting := [0]
  rhsNonContracting := [0]
  lhsBatch := []
  rhsBatch := []
  wf := dot_S512x1024_S8x1024_S512x8_1_1_0_0_n_n_wf
def dot_S512x8_S1024x8_S512x1024_1_1_0_0_n_n : DotDims S512x8 S1024x8 S512x1024 where
  lhsContracting := [1]
  rhsContracting := [1]
  lhsNonContracting := [0]
  rhsNonContracting := [0]
  lhsBatch := []
  rhsBatch := []
  wf := dot_S512x8_S1024x8_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S4x4096x8 : Shape := ⟨3, ![4, 4096, 8]⟩
abbrev S_ : Shape := ⟨0, ![]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x8, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .i32⟩
  | .hbm, ⟨16, _⟩ => ⟨S4x4096, .i32⟩
  | .hbm, ⟨17, _⟩ => ⟨S4x4096, .i1⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Pieces.lean ====
/-
  What one run of the kernel body leaves in the two running-sum buffers and in the output block, as the body's
  own arithmetic of the blocks it was given.

  The body has three ways to run. At the first step of a tile it resets both running sums and then adds the step's
  partial products, so it leaves "partial product added to the reset value". At a middle step it leaves "partial
  product added to what the step before left". At the last step it does the same and also writes the output block
  from the two updated running sums, the bias block and the mask block. Each store covers its whole buffer, so what
  a buffer holds afterwards is the last value stored into it.
-/
import proofs.«128327_j25752623907395_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First step of a tile: the base running sum is the step's update of the reset value. -/
theorem first_base (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : cond0_0 i) (hc1 : ¬cond0_1 i) (x0 : Vec F S512x1024 .f32) (x1 : Vec F S1024x1024 .f32) (x2 : Vec F S8x1024 .f32) (x3 : Vec F S1024x8 .f32) (x4 : Vec F S1x1024 .f32) (x5 : Vec F S512x1 .f32) :
    sout0_A_0 c i arg3 harg3 arg4 harg4 arg5 harg5 arg6 harg6 arg7 harg7 arg8 harg8 arg9 harg9 arg10 harg10 arg11 harg11 hc0 hc1 x0 x1 x2 x3 x4 x5 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1024) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- First step of a tile: the low-rank running sum is the step's update of the reset value. -/
theorem first_low (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : cond0_0 i) (hc1 : ¬cond0_1 i) (x0 : Vec F S512x1024 .f32) (x1 : Vec F S1024x1024 .f32) (x2 : Vec F S8x1024 .f32) (x3 : Vec F S1024x8 .f32) (x4 : Vec F S1x1024 .f32) (x5 : Vec F S512x1 .f32) :
    sout0_A_1 c i arg3 harg3 arg4 harg4 arg5 harg5 arg6 harg6 arg7 harg7 arg8 harg8 arg9 harg9 arg10 harg10 arg11 harg11 hc0 hc1 x0 x1 x2 x3 x4 x5 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x8) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- A middle step: the base running sum is the step's update of what the step before left. -/
theorem middle_base (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : ¬cond0_1 i) (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S512x1024) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- A middle step: the low-rank running sum is the step's update of what the step before left. -/
theorem middle_low (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : ¬cond0_1 i) (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S512x8) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- The last step: the base running sum is the step's update of what the step before left. -/
theorem last_base (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i) (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1024) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- The last step: the low-rank running sum is the step's update of what the step before left. -/
theorem last_low (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i) (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x8) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

/-- The last step: the output block is computed from the two updated running sums, the low-rank factor block, the bias block and the mask block. -/
theorem last_out (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i) (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay6 x3 (k0_pay5 x0 x2 xs1) (k0_pay4 x0 x1 xs0) x4 x5 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1024) hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz, View.readCov_unit_zero (S := S512x1024) _ hz, View.readCov_unit_zero (S := S512x8) _ hz]

end Cert.KernelIdeal.Pieces

end
-- ==== Proof.Steps.lean ====
/-
  What the two running sums and the output block hold after each grid step, in terms of the step's blocks and of
  what the step before left.

  Steps are numbered 0 … 511 and four consecutive steps work on one output tile. A step with number divisible by 4
  starts from the reset values; every other step continues from the running sums of the step before. A step with
  number congruent to 3 modulo 4 also writes the output block.
-/
import proofs.«128327_j25752623907395_1_alg».proof.Proof.Pieces

noncomputable section

namespace Cert.KernelIdeal.Steps

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- A tile's first step leaves the step's update of the reset values. -/
theorem first (c : Dev nD) (t : Fin cfg0.N) (h0 : t.val % 4 = 0) :
    (outsAt0 m c t.val t.isLt).2.1 = k0_pay4 (iblk m c 0 t) (iblk m c 1 t) k0_pay1
    ∧ (outsAt0 m c t.val t.isLt).2.2 = k0_pay5 (iblk m c 0 t) (iblk m c 2 t) k0_pay2 := by
  have h1 : ¬t.val % 4 = 3 := by omega
  rw [outsAt0_A m c t h0 h1]
  dsimp only
  exact ⟨Pieces.first_base (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
    Pieces.first_low (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

/-- Every other step leaves the step's update of what the step before left. -/
theorem later (c : Dev nD) (t : Fin cfg0.N) (h0 : ¬t.val % 4 = 0) :
    (outsAt0 m c t.val t.isLt).2.1 = k0_pay4 (iblk m c 0 t) (iblk m c 1 t) (outsAt0 m c (t.val - 1) (Nat.lt_of_le_of_lt (Nat.sub_le _ _) t.isLt)).2.1
    ∧ (outsAt0 m c t.val t.isLt).2.2 = k0_pay5 (iblk m c 0 t) (iblk m c 2 t) (outsAt0 m c (t.val - 1) (Nat.lt_of_le_of_lt (Nat.sub_le _ _) t.isLt)).2.2 := by
  by_cases h1 : t.val % 4 = 3
  · rw [outsAt0_C m c t h0 h1]
    dsimp only
    exact ⟨Pieces.last_base (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
      Pieces.last_low (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.middle_base (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
      Pieces.middle_low (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

/-- A tile's last step writes the output block from the running sums the same step leaves. -/
theorem last (c : Dev nD) (t : Fin cfg0.N) (h1 : t.val % 4 = 3) :
    (outsAt0 m c t.val t.isLt).1
      = k0_pay6 (iblk m c 3 t) (outsAt0 m c t.val t.isLt).2.2 (outsAt0 m c t.val t.isLt).2.1 (iblk m c 4 t) (iblk m c 5 t) := by
  have h0 : ¬t.val % 4 = 0 := by omega
  rw [(later m c t h0).1, (later m c t h0).2, outsAt0_C m c t h0 h1]
  dsimp only
  exact Pieces.last_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Blocks.lean ====
/-
  Which entries of the arrays each block of a grid step holds.

  The grid has 32 x 4 x 4 = 512 steps; step t works on tile row t / 16, tile column (t / 4) % 4 and reduction
  slice t % 4. Block (a, b) of a window with blocks of r x s entries starts at row a * r and column b * s of its
  array, so entry (p, l) of a block is entry (a * r + p, b * s + l) of the array.
-/
import proofs.«128327_j25752623907395_1_alg».proof.Proof.Gen.KernelIdeal.Frame
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

variable {F : FTy → Type} [FloatOps F]
variable (m : (ℓ : Loc nD τ sig) → Buf (Elt F) ℓ)

/-- The block index of every window at every step, decided over the 512 steps. -/
theorem blockIndex : ∀ t : Fin cfg0.N,
    (win0_0.index t (0 : Fin 2) = t.val / 16 ∧ win0_0.index t (1 : Fin 2) = t.val % 4)
    ∧ (win0_1.index t (0 : Fin 2) = t.val / 4 % 4 ∧ win0_1.index t (1 : Fin 2) = t.val % 4)
    ∧ (win0_2.index t (0 : Fin 2) = 0 ∧ win0_2.index t (1 : Fin 2) = t.val % 4)
    ∧ (win0_3.index t (0 : Fin 2) = t.val / 4 % 4 ∧ win0_3.index t (1 : Fin 2) = 0)
    ∧ (win0_4.index t (0 : Fin 2) = 0 ∧ win0_4.index t (1 : Fin 2) = t.val / 4 % 4)
    ∧ (win0_5.index t (0 : Fin 2) = t.val / 16 ∧ win0_5.index t (1 : Fin 2) = 0)
    ∧ (win0_6.index t (0 : Fin 2) = t.val / 16 ∧ win0_6.index t (1 : Fin 2) = t.val / 4 % 4) :=
  (by decide +kernel : ∀ t : Fin grid0.N, _)

/-- The x block of a step: rows 512 * (tile row) + p, columns 1024 * (step) + l of the flattened x. -/
theorem xBlock_apply (c : Dev nD) (t : Fin cfg0.N) (p : Fin 512) (l : Fin 1024) (R : Fin 16384) (I : Fin 4096)
    (hR : R.val = 512 * (t.val / 16) + p.val) (hI : I.val = 1024 * (t.val % 4) + l.val) :
    (iblk m c 0 t : Vec F S512x1024 .f32) (ix2 p l) = (V m c main_v0 : Vec F S16384x4096 .f32) (ix2 R I) := by
  obtain ⟨e0, e1⟩ := (blockIndex t).1
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = R.val; rw [e0, hR]; omega
  | ⟨1, _⟩ => show win0_0.index t (1 : Fin 2) * 1024 + 1 * l.val = I.val; rw [e1, hI]; omega

/-- The W block of a step: rows 1024 * (tile column) + q, columns 1024 * (step) + l of W. -/
theorem wBlock_apply (c : Dev nD) (t : Fin cfg0.N) (p : Fin 1024) (l : Fin 1024) (R : Fin 4096) (I : Fin 4096)
    (hR : R.val = 1024 * (t.val / 4 % 4) + p.val) (hI : I.val = 1024 * (t.val % 4) + l.val) :
    (iblk m c 1 t : Vec F S1024x1024 .f32) (ix2 p l) = (V m c main_arg2 : Vec F S4096x4096 .f32) (ix2 R I) := by
  obtain ⟨e0, e1⟩ := (blockIndex t).2.1
  unfold iblk
  rw [View.read_apply]
  show V m c main_arg2 _ = V m c main_arg2 _
  refine congrArg (V m c main_arg2) (funext fun a => Fin.ext ?_)
  match a with
  | ⟨0, _⟩ => show win0_1.index t (0 : Fin 2) * 1024 + 1 * p.val = R.val; rw [e0, hR]; omega
  | ⟨1, _⟩ => show win0_1.index t (1 : Fin 2) * 1024 + 1 * l.val = I.val; rw [e1, hI]; omega

/-- The A block of a step: all 8 rows, columns 1024 * (step) + l of A. -/
theorem aBlock_apply (c : Dev nD) (t : Fin cfg0.N) (p : Fin 8) (l : Fin 1024) (R : Fin 8) (I : Fin 4096)
    (hR : R.val = 8 * (0) + p.val) (hI : I.val = 1024 * (t.val % 4) + l.val) :
    (iblk m c 2 t : Vec F S8x1024 .f32) (ix2 p l) = (V m c main_arg4 : Vec F S8x4096 .f32) (ix2 R I) := by
  obtain ⟨e0, e1⟩ := (blockIndex t).2.2.1
  unfold iblk
  rw [View.read_apply]
  show V m c main_arg4 _ = V m c main_arg4 _
  refine congrArg (V m c main_arg4) (funext fun a => Fin.ext ?_)
  match a with
  | ⟨0, _⟩ => show win0_2.index t (0 : Fin 2) * 8 + 1 * p.val = R.val; rw [e0, hR]; omega
  | ⟨1, _⟩ => show win0_2.index t (1 : Fin 2) * 1024 + 1 * l.val = I.val; rw [e1, hI]; omega

/-- The B block of a step: rows 1024 * (tile column) + q, all 8 columns of B. -/
theorem bBlock_apply (c : Dev nD) (t : Fin cfg0.N) (p : Fin 1024) (l : Fin 8) (R : Fin 4096) (I : Fin 8)
    (hR : R.val = 1024 * (t.val / 4 % 4) + p.val) (hI : I.val = 8 * (0) + l.val) :
    (iblk m c 3 t : Vec F S1024x8 .f32) (ix2 p l) = (V m c main_arg5 : Vec F S4096x8 .f32) (ix2 R I) := by
  obtain ⟨e0, e1⟩ := (blockIndex t).2.2.2.1
  unfold iblk
  rw [View.read_apply]
  show V m c main_arg5 _ = V m c main_arg5 _
  refine congrArg (V m c main_arg5) (funext fun a => Fin.ext ?_)
  match a with
  | ⟨0, _⟩ => show win0_3.index t (0 : Fin 2) * 1024 + 1 * p.val = R.val; rw [e0, hR]; omega
  | ⟨1, _⟩ => show win0_3.index t (1 : Fin 2) * 8 + 1 * l.val = I.val; rw [e1, hI]; omega

/-- The bias block of a step: columns 1024 * (tile column) + q of the bias row. -/
theorem biasBlock_apply (c : Dev nD) (t : Fin cfg0.N) (p : Fin 1) (l : Fin 1024) (R : Fin 1) (I : Fin 4096)
    (hR : R.val = 1 * (0) + p.val) (hI : I.val = 1024 * (t.val / 4 % 4) + l.val) :
    (iblk m c 4 t : Vec F S1x1024 .f32) (ix2 p l) = (V m c main_v5 : Vec F S1x4096 .f32) (ix2 R I) := by
  obtain ⟨e0, e1⟩ := (blockIndex t).2.2.2.2.1
  unfold iblk
  rw [View.read_apply]
  show V m c main_v5 _ = V m c main_v5 _
  refine congrArg (V m c main_v5) (funext fun a => Fin.ext ?_)
  match a with
  | ⟨0, _⟩ => show win0_4.index t (0 : Fin 2) * 1 + 1 * p.val = R.val; rw [e0, hR]; omega
  | ⟨1, _⟩ => show win0_4.index t (1 : Fin 2) * 1024 + 1 * l.val = I.val; rw [e1, hI]; omega

/-- The mask block of a step: rows 512 * (tile row) + p of the mask column. -/
theorem maskBlock_apply (c : Dev nD) (t : Fin cfg0.N) (p : Fin 512) (l : Fin 1) (R : Fin 16384) (I : Fin 1)
    (hR : R.val = 512 * (t.val / 16) + p.val) (hI : I.val = 1 * (0) + l.val) :
    (iblk m c 5 t : Vec F S512x1 .f32) (ix2 p l) = (V m c main_v4 : Vec F S16384x1 .f32) (ix2 R I) := by
  obtain ⟨e0, e1⟩ := (blockIndex t).2.2.2.2.2.1
  unfold iblk
  rw [View.read_apply]
  show V m c main_v4 _ = V m c main_v4 _
  refine congrArg (V m c main_v4) (funext fun a => Fin.ext ?_)
  match a with
  | ⟨0, _⟩ => show win0_5.index t (0 : Fin 2) * 512 + 1 * p.val = R.val; rw [e0, hR]; omega
  | ⟨1, _⟩ => show win0_5.index t (1 : Fin 2) * 1 + 1 * l.val = I.val; rw [e1, hI]; omega

end Cert.KernelIdeal.Blocks

end
-- ==== Proof.LibTransposedDot.lean ====
/-
  A matrix product contracted on the LAST axis of both operands, `A · Bᵀ`, read at an index, and the row forms of a
  column (extended reals, the ideal instance).

  With the dimension numbers "contract axis 1 of the left with axis 1 of the right" an `m × k` by `n × k` product reads,
  at `(p, q)`, `∑ c, A (p, c) * B (q, c)` — the host's `dot_general` and a kernel's product accumulated into a zero splat
  alike. A column `[a, 1]` transposed to the row `[1, a]` reads, at `(u, i)`, the column's entry `i`; that row laid over
  the rows of a `[b, a]` matrix reads, at `(p, c)`, the row's entry `c`; and a column `[a, 1]` reshaped to the vector `[a]`
  reads, at `i`, the column's entry `i`.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

/-! ## `A · Bᵀ` at an index -/

/-- The host's `dot_general` contracting axis 1 of both operands, read at `(p, q)`. -/
theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A kernel's product with the same dimension numbers into a zero splat, read at `(p, q)`: the same sum. -/
theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

/-! ## A column as a row, and the row over every row of a matrix -/

/-- A column `[a, 1]` transposed to the row `[1, a]` reads, at `(u, i)`, the column at `(i, 0)`. -/
theorem transpose_a1_1a_apply {a : ℕ} (v : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] v h (ix2 u i) = v (ix2 i (0 : Fin 1)) := by
  refine transpose_apply [1, 0] v h (ix2 u i) (ix2 i (0 : Fin 1)) fun b => ?_
  match b with
  | ⟨0, _⟩ =>
    show (0 : ℕ) = u.val
    omega
  | ⟨1, _⟩ => rfl

/-- A row `[1, a]` broadcast over the rows of `[b, a]` reads, at `(p, c)`, the row at `(0, c)`. -/
theorem broadcastTo_1a_ba_apply {a b : ℕ} (v : (⟨2, ![1, a]⟩ : Shape).Idx → α)
    (h : (⟨2, ![1, a]⟩ : Shape).Broadcasts ⟨2, ![b, a]⟩) (p : Fin b) (c : Fin a) :
    broadcastTo ⟨2, ![b, a]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if a = 1 then 0 else c.val
    split
    · have := c.isLt; omega
    · rfl

/-- A column `[a, 1]` reshaped to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Cert.LibTransposedDot

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.BodyValues.lean ====
/-
  What one run of the kernel body stores, entry by entry, over the extended reals.

  The body keeps two running sums for its tile of 512 rows: a 512 x 1024 base accumulator and a 512 x 8
  low-rank accumulator. At every step it adds to entry (p, q) of the base accumulator the partial dot product
  sum_l x(p, l) * w(q, l) of the current 1024-wide slice of a row of x with the same slice of a row of W, and to
  entry (p, r) of the low-rank accumulator sum_l x(p, l) * a(r, l). At the first step of a tile both start from 0.
  At the last step the output entry (p, q) is
      (base(p, q) + bias(q)) + (sum_r xa(p, r) * bl(q, r)) * (2 * mask(p)).
  The narrowing to bf16 before each product is the identity on extended reals.
-/
import proofs.«128327_j25752623907395_1_alg».proof.Proof.Gen.KernelIdeal.Skeleton
import proofs.«128327_j25752623907395_1_alg».proof.Proof.LibTransposedDot
import proofs.«128327_j25752623907395_1_alg».proof.Proof.LibKeepdims

noncomputable section

namespace Cert.KernelIdeal.Body

open Idealize.ShloMosaic Idealize.ShloMosaic.ValueIdx Cert.KernelIdeal Cert.KernelIdeal.Gen
open scoped BigOperators

/-- The LoRA scale, the float literal 2.0 as the kernel and the reference both spell it. -/
abbrev two : EReal := Ideal.ofBits .f32 0x40000000#32

/-- The reset value of the base accumulator is 0 everywhere. -/
theorem resetBase_apply (p : Fin 512) (q : Fin 1024) : k0_pay1 (F := Ideal) (ix2 p q) = 0 := by
  unfold k0_pay1
  simp only [shapeCast_self]
  exact Ideal.ofBits_zero_f32

/-- The reset value of the low-rank accumulator is 0 everywhere. -/
theorem resetLow_apply (p : Fin 512) (r : Fin 8) : k0_pay2 (F := Ideal) (ix2 p r) = 0 := by
  unfold k0_pay2
  simp only [shapeCast_self]
  exact Ideal.ofBits_zero_f32

/-- One step of the base accumulator: the old entry plus the slice's partial dot product of a row of x with a row of W. -/
theorem stepBase_apply (x : Vec Ideal S512x1024 .f32) (w : Vec Ideal S1024x1024 .f32) (acc : Vec Ideal S512x1024 .f32)
    (p : Fin 512) (q : Fin 1024) :
    k0_pay4 (F := Ideal) x w acc (ix2 p q) = acc (ix2 p q) + ∑ l : Fin 1024, x (ix2 p l) * w (ix2 q l) := by
  unfold k0_pay4 k0_pay3
  simp only [shapeCast_self]
  rw [addf_apply]
  congr 1
  exact LibTransposedDot.matmul_transposedRhs_apply _ rfl none _ _ p q

/-- One step of the low-rank accumulator: the old entry plus the slice's partial dot product of a row of x with a row of A. -/
theorem stepLow_apply (x : Vec Ideal S512x1024 .f32) (a : Vec Ideal S8x1024 .f32) (acc : Vec Ideal S512x8 .f32)
    (p : Fin 512) (r : Fin 8) :
    k0_pay5 (F := Ideal) x a acc (ix2 p r) = acc (ix2 p r) + ∑ l : Fin 1024, x (ix2 p l) * a (ix2 r l) := by
  unfold k0_pay5 k0_pay3
  simp only [shapeCast_self]
  rw [addf_apply]
  congr 1
  exact LibTransposedDot.matmul_transposedRhs_apply _ rfl none _ _ p r

/-- The output entry written at a tile's last step. -/
theorem finish_apply (bl : Vec Ideal S1024x8 .f32) (xa : Vec Ideal S512x8 .f32) (base : Vec Ideal S512x1024 .f32)
    (bias : Vec Ideal S1x1024 .f32) (mk : Vec Ideal S512x1 .f32) (p : Fin 512) (q : Fin 1024) :
    k0_pay6 (F := Ideal) bl xa base bias mk (ix2 p q)
      = (base (ix2 p q) + bias (ix2 (0 : Fin 1) q))
        + (∑ r : Fin 8, xa (ix2 p r) * bl (ix2 q r)) * (two * mk (ix2 p (0 : Fin 1))) := by
  unfold k0_pay6
  simp only [shapeCast_self]
  rw [addf_apply, addf_apply, mulf_apply, LibTransposedDot.broadcastTo_1a_ba_apply,
    LibKeepdims.broadcastTo_a1_ab_apply,
    LibTransposedDot.matmul_transposedRhs_apply dot_S512x8_S1024x8_S512x1024_1_1_0_0_n_n rfl none _ _ p q]
  rfl

end Cert.KernelIdeal.Body

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.RowSums.lean ====
/-
  Dot products of rows, slice by slice, and the layer's output as one function of its arguments.

  A row of 4096 entries is cut into four slices of 1024. Adding the four partial dot products one after the other,
  starting from 0, gives the dot product over the whole row: addition of extended reals is associative and
  commutative and 0 is neutral, and nothing else is used (no term has to be finite).

  The layer computes, for token row R and output feature O,
      (sum_i X(R, i) * W(O, i) + bias(O)) + (sum_r (sum_i X(R, i) * A(r, i)) * B(O, r)) * (2 * mask(R)).
-/
import Idealize.ShloMosaic.PureOps.Ideal
import Idealize.ShloMosaic.Lib.ValueIdx
import proofs.«128327_j25752623907395_1_alg».proof.Proof.LibTileSums

noncomputable section

namespace Cert.RowSums

open Idealize.ShloMosaic Idealize.ShloMosaic.ValueIdx Cert.LibTileSums
open scoped BigOperators

/-- Entry (r, i) of a matrix, the coordinates given as natural numbers; 0 outside the matrix. -/
def entry {a b : ℕ} (f : (⟨2, ![a, b]⟩ : Shape).Idx → EReal) (r i : ℕ) : EReal :=
  if h : r < a ∧ i < b then f (ix2 ⟨r, h.1⟩ ⟨i, h.2⟩) else 0

theorem entry_of_lt {a b : ℕ} (f : (⟨2, ![a, b]⟩ : Shape).Idx → EReal) {r i : ℕ} (hr : r < a) (hi : i < b) :
    entry f r i = f (ix2 ⟨r, hr⟩ ⟨i, hi⟩) := by
  unfold entry
  rw [dif_pos ⟨hr, hi⟩]

theorem entry_fin {a b : ℕ} (f : (⟨2, ![a, b]⟩ : Shape).Idx → EReal) (r : Fin a) (i : Fin b) :
    entry f r.val i.val = f (ix2 r i) :=
  entry_of_lt f r.isLt i.isLt

/-- The partial dot product of row R of X with row O of Y over slice kk of their 1024-wide column slices. -/
def sliceDot {a b n : ℕ} (X : (⟨2, ![a, n]⟩ : Shape).Idx → EReal) (Y : (⟨2, ![b, n]⟩ : Shape).Idx → EReal)
    (R O kk : ℕ) : EReal :=
  ∑ l : Fin 1024, entry X R (kk * 1024 + l.val) * entry Y O (kk * 1024 + l.val)

/-- Four slices of 1024 columns make a row of 4096: the running sum after the fourth slice is the whole dot product. -/
theorem accum_sliceDot {a b : ℕ} (X : (⟨2, ![a, 4096]⟩ : Shape).Idx → EReal) (Y : (⟨2, ![b, 4096]⟩ : Shape).Idx → EReal)
    (R : Fin a) (O : Fin b) :
    accum (sliceDot X Y R.val O.val) 3 = ∑ i : Fin 4096, X (ix2 R i) * Y (ix2 O i) := by
  rw [accum_eq_sum]
  refine sum_tiles_of (A := 4) (B := 1024) (n := 4096) rfl (fun i => X (ix2 R i) * Y (ix2 O i))
    (fun k => sliceDot X Y R.val O.val k.val) fun k => ?_
  unfold sliceDot
  refine Finset.sum_congr rfl fun l _ => ?_
  rw [entry_of_lt X R.isLt (tile_lt (A := 4) (B := 1024) rfl k l), entry_of_lt Y O.isLt (tile_lt (A := 4) (B := 1024) rfl k l)]

/-- The LoRA scale, the float literal 2.0. -/
abbrev two : EReal := Ideal.ofBits .f32 0x40000000#32

/-- The gated low-rank linear layer on the flattened token axis: entry (R, O) of the output. -/
def layer2 (X : (⟨2, ![16384, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal)
    (bias : (⟨2, ![1, 4096]⟩ : Shape).Idx → EReal) (mask : (⟨2, ![16384, 1]⟩ : Shape).Idx → EReal) :
    (⟨2, ![16384, 4096]⟩ : Shape).Idx → EReal := fun j =>
  ((∑ i : Fin 4096, X (ix2 (j 0) i) * W (ix2 (j 1) i)) + bias (ix2 (0 : Fin 1) (j 1)))
    + (∑ r : Fin 8, (∑ i : Fin 4096, X (ix2 (j 0) i) * A (ix2 r i)) * B (ix2 (j 1) r))
      * (two * mask (ix2 (j 0) (0 : Fin 1)))

end Cert.RowSums

end
-- ==== Proof.RunningSums.lean ====
/-
  The running sums as partial dot products, and the output tile.

  Step n works on tile row n / 16, tile column n / 4 % 4 and reduction slice n % 4. After it, entry (p, q) of the
  base running sum is the sum of slices 0 … n % 4 of the dot product of row 512 * (n / 16) + p of the flattened x
  with row 1024 * (n / 4 % 4) + q of W, and entry (p, r) of the low-rank running sum the same partial dot product
  with row r of A: by induction on the step, a step divisible by 4 starting again from 0. After a step with
  n % 4 = 3 the four slices are complete, so the block written there holds the layer's output on its tile.
-/
import proofs.«128327_j25752623907395_1_alg».proof.Proof.Steps
import proofs.«128327_j25752623907395_1_alg».proof.Proof.Blocks
import proofs.«128327_j25752623907395_1_alg».proof.Proof.BodyValues
import proofs.«128327_j25752623907395_1_alg».proof.Proof.RowSums

noncomputable section

namespace Cert.KernelIdeal.Tiles

open Idealize.ShloMosaic Idealize.ShloMosaic.TcCoe Idealize.SL.Sem Idealize.ShloMosaic.ValueIdx
open Cert.KernelIdeal Cert.KernelIdeal.Gen Cert.RowSums Cert.LibTileSums
open scoped BigOperators

variable (m : (ℓ : Loc nD τ sig) → Buf (Elt Ideal) ℓ)

/-- The arrays the kernel region reads, as it finds them: the flattened x, W, A, B, the bias as a row and the
    mask as a column. -/
abbrev xArr (c : Dev nD) : Vec Ideal S16384x4096 .f32 := V m c main_v0
abbrev wArr (c : Dev nD) : Vec Ideal S4096x4096 .f32 := V m c main_arg2
abbrev aArr (c : Dev nD) : Vec Ideal S8x4096 .f32 := V m c main_arg4
abbrev bArr (c : Dev nD) : Vec Ideal S4096x8 .f32 := V m c main_arg5
abbrev biasArr (c : Dev nD) : Vec Ideal S1x4096 .f32 := V m c main_v5
abbrev maskArr (c : Dev nD) : Vec Ideal S16384x1 .f32 := V m c main_v4

/-- A step's update of the base running sum, in array coordinates. -/
theorem base_step (c : Dev nD) (t : Fin cfg0.N) (acc : Vec Ideal S512x1024 .f32) (p : Fin 512) (q : Fin 1024) :
    k0_pay4 (F := Ideal) (iblk m c 0 t) (iblk m c 1 t) acc (ix2 p q)
      = acc (ix2 p q) + sliceDot (xArr m c) (wArr m c) (512 * (t.val / 16) + p.val) (1024 * (t.val / 4 % 4) + q.val) (t.val % 4) := by
  have hN : t.val < 512 := lt_of_lt_of_eq t.isLt N_0
  refine (Body.stepBase_apply (iblk m c 0 t) (iblk m c 1 t) acc p q).trans ?_
  congr 1
  unfold sliceDot
  refine Finset.sum_congr rfl fun l _ => ?_
  have h1 : 512 * (t.val / 16) + p.val < 16384 := by omega
  have h2 : t.val % 4 * 1024 + l.val < 4096 := by omega
  have h3 : 1024 * (t.val / 4 % 4) + q.val < 4096 := by omega
  rw [entry_of_lt _ h1 h2, entry_of_lt _ h3 h2]
  exact congrArg₂ (· * ·)
    (Blocks.xBlock_apply m c t p l ⟨_, h1⟩ ⟨_, h2⟩ rfl (congrArg (· + l.val) (Nat.mul_comm (t.val % 4) 1024)))
    (Blocks.wBlock_apply m c t q l ⟨_, h3⟩ ⟨_, h2⟩ rfl (congrArg (· + l.val) (Nat.mul_comm (t.val % 4) 1024)))

/-- A step's update of the low-rank running sum, in array coordinates. -/
theorem low_step (c : Dev nD) (t : Fin cfg0.N) (acc : Vec Ideal S512x8 .f32) (p : Fin 512) (r : Fin 8) :
    k0_pay5 (F := Ideal) (iblk m c 0 t) (iblk m c 2 t) acc (ix2 p r)
      = acc (ix2 p r) + sliceDot (xArr m c) (aArr m c) (512 * (t.val / 16) + p.val) r.val (t.val % 4) := by
  have hN : t.val < 512 := lt_of_lt_of_eq t.isLt N_0
  refine (Body.stepLow_apply (iblk m c 0 t) (iblk m c 2 t) acc p r).trans ?_
  congr 1
  unfold sliceDot
  refine Finset.sum_congr rfl fun l _ => ?_
  have h1 : 512 * (t.val / 16) + p.val < 16384 := by omega
  have h2 : t.val % 4 * 1024 + l.val < 4096 := by omega
  rw [entry_of_lt _ h1 h2, entry_of_lt _ r.isLt h2]
  exact congrArg₂ (· * ·)
    (Blocks.xBlock_apply m c t p l ⟨_, h1⟩ ⟨_, h2⟩ rfl (congrArg (· + l.val) (Nat.mul_comm (t.val % 4) 1024)))
    (Blocks.aBlock_apply m c t r l ⟨_, r.isLt⟩ ⟨_, h2⟩ (by show r.val = 8 * 0 + r.val; omega) (congrArg (· + l.val) (Nat.mul_comm (t.val % 4) 1024)))

/-- After step n the two running sums are the running sums of the slices' partial dot products. -/
theorem runningSums (c : Dev nD) : ∀ (n : ℕ) (h : n < cfg0.N),
    (∀ (p : Fin 512) (q : Fin 1024), (outsAt0 m c n h).2.1 (ix2 p q)
        = accum (sliceDot (xArr m c) (wArr m c) (512 * (n / 16) + p.val) (1024 * (n / 4 % 4) + q.val)) (n % 4))
    ∧ (∀ (p : Fin 512) (r : Fin 8), (outsAt0 m c n h).2.2 (ix2 p r)
        = accum (sliceDot (xArr m c) (aArr m c) (512 * (n / 16) + p.val) r.val) (n % 4)) := by
  intro n
  induction n with
  | zero =>
    intro h
    obtain ⟨e1, e2⟩ := Steps.first m c ⟨0, h⟩ rfl
    constructor
    · intro p q
      rw [e1, base_step m c ⟨0, h⟩ _ p q, Body.resetBase_apply]
      rfl
    · intro p r
      rw [e2, low_step m c ⟨0, h⟩ _ p r, Body.resetLow_apply]
      rfl
  | succ n ih =>
    intro h
    by_cases h0 : (n + 1) % 4 = 0
    · obtain ⟨e1, e2⟩ := Steps.first m c ⟨n + 1, h⟩ h0
      constructor
      · intro p q
        rw [e1, base_step m c ⟨n + 1, h⟩ _ p q, Body.resetBase_apply]
        show 0 + sliceDot _ _ _ _ ((n + 1) % 4) = accum _ ((n + 1) % 4)
        rw [h0]
        rfl
      · intro p r
        rw [e2, low_step m c ⟨n + 1, h⟩ _ p r, Body.resetLow_apply]
        show 0 + sliceDot _ _ _ _ ((n + 1) % 4) = accum _ ((n + 1) % 4)
        rw [h0]
        rfl
    · obtain ⟨e1, e2⟩ := Steps.later m c ⟨n + 1, h⟩ h0
      obtain ⟨i1, i2⟩ := ih (Nat.lt_of_succ_lt h)
      have d16 : (n + 1) / 16 = n / 16 := by omega
      have d4 : (n + 1) / 4 % 4 = n / 4 % 4 := by omega
      have dk : (n + 1) % 4 = n % 4 + 1 := by omega
      constructor
      · intro p q
        rw [e1, base_step m c ⟨n + 1, h⟩ _ p q]
        show (outsAt0 m c n _).2.1 (ix2 p q) + sliceDot _ _ (512 * ((n + 1) / 16) + p.val) (1024 * ((n + 1) / 4 % 4) + q.val) ((n + 1) % 4)
          = accum (sliceDot _ _ (512 * ((n + 1) / 16) + p.val) (1024 * ((n + 1) / 4 % 4) + q.val)) ((n + 1) % 4)
        rw [i1 p q, d16, d4, dk]
        rfl
      · intro p r
        rw [e2, low_step m c ⟨n + 1, h⟩ _ p r]
        show (outsAt0 m c n _).2.2 (ix2 p r) + sliceDot _ _ (512 * ((n + 1) / 16) + p.val) r.val ((n + 1) % 4)
          = accum (sliceDot _ _ (512 * ((n + 1) / 16) + p.val) r.val) ((n + 1) % 4)
        rw [i2 p r, d16, dk]
        rfl

end Cert.KernelIdeal.Tiles

end
-- ==== Proof.Flatten.lean ====
/-
  The layer on (batch, position, feature) arrays, and its flattened form.

  The kernel flattens x of shape [4, 4096, 4096] to [16384, 4096], token (b, s) becoming row b * 4096 + s, views the
  bias [4096] as a row [1, 4096] and the token mask [4, 4096] as a column [16384, 1], computes the layer on the
  flattened arrays and reshapes the result back to [4, 4096, 4096]. A reshape keeps the row-major position of every
  entry, so reading the reshaped result at (b, s, o) reads the flattened layer at (b * 4096 + s, o), whose own reads
  of the flattened x, the bias row and the mask column are reads of x at (b, s, ·), of the bias at o and of the mask
  at (b, s).
-/
import Idealize.ShloMosaic.Lib.Pipeline.Value
import proofs.«128327_j25752623907395_1_alg».proof.Proof.RowSums

noncomputable section

namespace Cert.RowSums

open Idealize.ShloMosaic Idealize.ShloMosaic.ValueIdx
open scoped BigOperators

/-- The gated low-rank linear layer on (batch, position, feature) arrays: entry (b, s, o) of the output is
    (sum_i x(b, s, i) * W(o, i) + bias(o)) + (sum_r (sum_i x(b, s, i) * A(r, i)) * B(o, r)) * (2 * mask(b, s)). -/
def layer3 (x : (⟨3, ![4, 4096, 4096]⟩ : Shape).Idx → EReal) (mask : (⟨2, ![4, 4096]⟩ : Shape).Idx → EReal)
    (W : (⟨2, ![4096, 4096]⟩ : Shape).Idx → EReal) (bias : (⟨1, ![4096]⟩ : Shape).Idx → EReal)
    (A : (⟨2, ![8, 4096]⟩ : Shape).Idx → EReal) (B : (⟨2, ![4096, 8]⟩ : Shape).Idx → EReal) :
    (⟨3, ![4, 4096, 4096]⟩ : Shape).Idx → EReal := fun j =>
  ((∑ i : Fin 4096, x (ix3 (j 0) (j 1) i) * W (ix2 (j 2) i)) + bias (ix1 (j 2)))
    + (∑ r : Fin 8, (∑ i : Fin 4096, x (ix3 (j 0) (j 1) i) * A (ix2 r i)) * B (ix2 (j 2) r))
      * (two * mask (ix2 (j 0) (j 1)))

/-- Token (b, s) is row b * 4096 + s of the flattened arrays. -/
theorem token_lt (b : Fin 4) (s : Fin 4096) : b.val * 4096 + s.val < 16384 := by
  have := b.isLt; have := s.isLt; omega

/-- The flattened layer reshaped back is the layer on the (batch, position, feature) arrays. -/
theorem unflatten_layer2 (x : (⟨3, ![4, 4096, 4096]⟩ : Shape).Idx → EReal) (mask : (⟨2, ![4, 4096]⟩ : Shape).Idx → EReal)
    (W : (⟨2, ![4096, 4096]⟩ : Shape).Idx → EReal) (bias : (⟨1, ![4096]⟩ : Shape).Idx → EReal)
    (A : (⟨2, ![8, 4096]⟩ : Shape).Idx → EReal) (B : (⟨2, ![4096, 8]⟩ : Shape).Idx → EReal)
    (hx : (⟨3, ![4, 4096, 4096]⟩ : Shape).ShapeCasts ⟨2, ![16384, 4096]⟩)
    (hb : (⟨1, ![4096]⟩ : Shape).ShapeCasts ⟨2, ![1, 4096]⟩)
    (hm : (⟨2, ![4, 4096]⟩ : Shape).ShapeCasts ⟨2, ![16384, 1]⟩)
    (ho : (⟨2, ![16384, 4096]⟩ : Shape).ShapeCasts ⟨3, ![4, 4096, 4096]⟩) :
    shapeCast ⟨3, ![4, 4096, 4096]⟩
        (layer2 (shapeCast ⟨2, ![16384, 4096]⟩ x hx) W A B (shapeCast ⟨2, ![1, 4096]⟩ bias hb)
          (shapeCast ⟨2, ![16384, 1]⟩ mask hm)) ho
      = layer3 x mask W bias A B := by
  funext j
  obtain ⟨b, s, o, rfl⟩ : ∃ (b : Fin 4) (s : Fin 4096) (o : Fin 4096), j = ix3 b s o := ⟨j 0, j 1, j 2, eq_ix3 j⟩
  have hs := s.isLt
  have ho' := o.isLt
  rw [shapeCast_apply _ ho (ix3 b s o) (ix2 ⟨b.val * 4096 + s.val, token_lt b s⟩ o) (by
    rw [Shape.rowMajor_val_two, Shape.rowMajor_val_three]; rfl)]
  have ex : ∀ i : Fin 4096, shapeCast ⟨2, ![16384, 4096]⟩ x hx (ix2 ⟨b.val * 4096 + s.val, token_lt b s⟩ i) = x (ix3 b s i) :=
    fun i => shapeCast_apply x hx _ _ (by rw [Shape.rowMajor_val_two, Shape.rowMajor_val_three]; rfl)
  have eb : shapeCast ⟨2, ![1, 4096]⟩ bias hb (ix2 (0 : Fin 1) o) = bias (ix1 o) :=
    shapeCast_apply bias hb _ _ (by rw [Shape.rowMajor_val_two, Shape.rowMajor_val_one]; show o.val = 0 * 4096 + o.val; omega)
  have em : shapeCast ⟨2, ![16384, 1]⟩ mask hm (ix2 ⟨b.val * 4096 + s.val, token_lt b s⟩ (0 : Fin 1)) = mask (ix2 b s) :=
    shapeCast_apply mask hm _ _ (by rw [Shape.rowMajor_val_two, Shape.rowMajor_val_two]; show b.val * 4096 + s.val = (b.val * 4096 + s.val) * 1 + 0; omega)
  unfold layer2 layer3
  show ((∑ i : Fin 4096, shapeCast ⟨2, ![16384, 4096]⟩ x hx (ix2 ⟨b.val * 4096 + s.val, token_lt b s⟩ i) * W (ix2 o i))
        + shapeCast ⟨2, ![1, 4096]⟩ bias hb (ix2 (0 : Fin 1) o))
      + (∑ r : Fin 8, (∑ i : Fin 4096, shapeCast ⟨2, ![16384, 4096]⟩ x hx (ix2 ⟨b.val * 4096 + s.val, token_lt b s⟩ i) * A (ix2 r i)) * B (ix2 o r))
        * (two * shapeCast ⟨2, ![16384, 1]⟩ mask hm (ix2 ⟨b.val * 4096 + s.val, token_lt b s⟩ (0 : Fin 1)))
    = ((∑ i : Fin 4096, x (ix3 b s i) * W (ix2 o i)) + bias (ix1 o))
      + (∑ r : Fin 8, (∑ i : Fin 4096, x (ix3 b s i) * A (ix2 r i)) * B (ix2 o r)) * (two * mask (ix2 b s))
  simp only [ex, eb, em]

end Cert.RowSums

end
-- ==== Proof.KernelValue.lean ====
/-
  The kernel's result array.

  A tile's last step writes block (tile row, tile column) of the flattened result, and by the running sums that block
  holds the flattened layer on its entries; the 32 x 4 tiles' blocks cover the flattened result, so after the region it
  is the flattened layer of the arrays the region read. Those arrays are the host's reshapes of x, of the bias and of
  the token mask, and the host reshapes the flattened result back: the program's result is the layer of its arguments.
-/
import proofs.«128327_j25752623907395_1_alg».proof.Proof.RunningSums
import proofs.«128327_j25752623907395_1_alg».proof.Proof.Flatten
import Idealize.ShloMosaic.Lib.Pipeline.Value
import Idealize.ShloMosaic.Lib.StableHlo.Run

noncomputable section

namespace Cert.KernelIdeal.Tiles

open Idealize.ShloMosaic Idealize.ShloMosaic.TcCoe Idealize.SL.Sem Idealize.ShloMosaic.ValueIdx
open Cert.KernelIdeal Cert.KernelIdeal.Gen Cert.RowSums Cert.LibTileSums
open Idealize.ShloMosaic.Pipeline (Dat)
open scoped BigOperators

variable (m : (ℓ : Loc nD τ sig) → Buf (Elt Ideal) ℓ) (ρ : Dev nD → PrngReg)

/-- The flattened layer of the arrays the region reads. -/
abbrev flatLayer (c : Dev nD) : Vec Ideal S16384x4096 .f32 :=
  layer2 (xArr m c) (wArr m c) (aArr m c) (bArr m c) (biasArr m c) (maskArr m c)

/-- The block a tile's last step writes holds the flattened layer: entry y of the block is entry j of the flattened
    layer whenever j is y moved to the tile's rows and columns. -/
theorem tile_out (c : Dev nD) (t : Fin cfg0.N) (h1 : t.val % 4 = 3) (y : S512x1024.Idx) (j : S16384x4096.Idx)
    (hr : (j 0).val = 512 * (t.val / 16) + (y 0).val) (ho : (j 1).val = 1024 * (t.val / 4 % 4) + (y 1).val) :
    (outsAt0 m c t.val t.isLt).1 y = flatLayer m c j := by
  obtain ⟨p, q, rfl⟩ : ∃ (p : Fin 512) (q : Fin 1024), y = ix2 p q := ⟨y 0, y 1, eq_ix2 y⟩
  obtain ⟨R, O, rfl⟩ : ∃ (R : Fin 16384) (O : Fin 4096), j = ix2 R O := ⟨j 0, j 1, eq_ix2 j⟩
  have hR : R.val = 512 * (t.val / 16) + p.val := hr
  have hO : O.val = 1024 * (t.val / 4 % 4) + q.val := ho
  obtain ⟨s1, s2⟩ := runningSums m c t.val t.isLt
  rw [Steps.last m c t h1]
  refine (Body.finish_apply (iblk m c 3 t) (outsAt0 m c t.val t.isLt).2.2 (outsAt0 m c t.val t.isLt).2.1 (iblk m c 4 t)
    (iblk m c 5 t) p q).trans ?_
  show _ = ((∑ i : Fin 4096, xArr m c (ix2 R i) * wArr m c (ix2 O i)) + biasArr m c (ix2 (0 : Fin 1) O))
      + (∑ r : Fin 8, (∑ i : Fin 4096, xArr m c (ix2 R i) * aArr m c (ix2 r i)) * bArr m c (ix2 O r))
        * (two * maskArr m c (ix2 R (0 : Fin 1)))
  refine congrArg₂ (· + ·) (congrArg₂ (· + ·) ?_ ?_)
    (congrArg₂ (· * ·) (Finset.sum_congr rfl fun r _ => congrArg₂ (· * ·) ?_ ?_) (congrArg (two * ·) ?_))
  · rw [s1 p q, h1, ← hR, ← hO]
    exact accum_sliceDot (xArr m c) (wArr m c) R O
  · exact Blocks.biasBlock_apply m c t 0 q 0 O (by show (0 : ℕ) = 1 * 0 + 0; omega) hO
  · rw [s2 p r, h1, ← hR]
    exact accum_sliceDot (xArr m c) (aArr m c) R r
  · exact Blocks.bBlock_apply m c t q r O r hO (by show r.val = 8 * 0 + r.val; omega)
  · exact Blocks.maskBlock_apply m c t p 0 R 0 hR (by show (0 : ℕ) = 1 * 0 + 0; omega)

/-- What a tile's last step writes back is its block of the flattened layer. -/
theorem flushed_eq (c : Dev nD) (t : Fin cfg0.N) (hf : (cfg0.win 6).flush t = true) :
    (dats m 0 c).flushed 6 t = ((cfg0.win 6).blk t).view.read (Elt Ideal) (flatLayer m c) := by
  have h1 : t.val % 4 = 3 := (flush0_6 t).mp hf
  obtain ⟨e0, e1⟩ := (Blocks.blockIndex t).2.2.2.2.2.2
  show (cfg0.win 6).cut (grid0.coords t) ((dats m 0 c).after 6 t) = _
  rw [after0_6]
  funext y
  show (outsAt0 m c t.val t.isLt).1 y = flatLayer m c (((cfg0.win 6).blk t).view.emb y)
  refine tile_out m c t h1 y _ ?_ ?_
  · show win0_6.index t (0 : Fin 2) * 512 + 1 * (y 0).val = _
    rw [e0]; omega
  · show win0_6.index t (1 : Fin 2) * 1024 + 1 * (y 1).val = _
    rw [e1]; omega

/-- Every entry of the flattened result lies in the block some tile's last step writes. -/
theorem covered (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 512 := N_0
  let t : Fin cfg0.N := ⟨16 * ((i 0).val / 512) + 4 * ((i 1).val / 1024) + 3, by rw [hN]; omega⟩
  have ht : t.val = 16 * ((i 0).val / 512) + 4 * ((i 1).val / 1024) + 3 := rfl
  obtain ⟨e0, e1⟩ := (Blocks.blockIndex t).2.2.2.2.2.2
  refine ⟨t, (flush0_6 t).mpr (by rw [ht]; omega), ?_⟩
  show i ∈ ((View.whole main_v6).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1, ht]; omega

/-- After the region the flattened result is the flattened layer. -/
theorem flatResult (c : Dev nD) : (dats m 0 c).arrAt 6 cfg0.N = flatLayer m c :=
  (dats m 0 c).arrAt_eq_of_cover 6 (flatLayer m c) (flushed_eq m c) (covered)

/-! ## The arrays the region reads are the host's reshapes of the arguments -/

/-- The token mask: 1.0 where the token id is 7 and 0.0 elsewhere, as a float array. -/
abbrev tokenMask (ids : IVec S4x4096 32) : FVec Ideal S4x4096 .f32 :=
  uitofp (F := Ideal) .f32 (cmpi .eq ids (broadcastInDim S4x4096 ![] bcast_S_S4x4096 (constantI S_ 32 7#32)))

theorem xArr_eq (c : Dev nD) :
    xArr m c = shapeCast S16384x4096 (m ((c : Thread nD τ).loc main_arg0)) shapeCasts_S4x4096x4096_S16384x4096 := by
  show StableHlo.after hostOps0 (fun b => m (c, b)) (Proc.devRef .tc main_v0) = _
  after_results
  rfl

theorem biasArr_eq (c : Dev nD) :
    biasArr m c = shapeCast S1x4096 (m ((c : Thread nD τ).loc main_arg3)) shapeCasts_S4096_S1x4096 := by
  show StableHlo.after hostOps0 (fun b => m (c, b)) (Proc.devRef .tc main_v5) = _
  after_results
  rfl

theorem maskArr_eq (c : Dev nD) :
    maskArr m c = shapeCast S16384x1 (tokenMask (m ((c : Thread nD τ).loc main_arg1))) shapeCasts_S4x4096_S16384x1 := by
  show StableHlo.after hostOps0 (fun b => m (c, b)) (Proc.devRef .tc main_v4) = _
  after_results
  rfl

/-- The program's result: the layer of its arguments. -/
abbrev result (c : Dev nD) : Buf (Elt Ideal) ((c.tc : Thread nD τ).loc main_v7) :=
  layer3 (m ((c : Thread nD τ).loc main_arg0)) (tokenMask (m ((c : Thread nD τ).loc main_arg1)))
    (m ((c : Thread nD τ).loc main_arg2)) (m ((c : Thread nD τ).loc main_arg3))
    (m ((c : Thread nD τ).loc main_arg4)) (m ((c : Thread nD τ).loc main_arg5))

/-- The host's last reshape of the flattened result gives the layer of the arguments. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v6)
      = flatLayer m c from (Pipeline.withArrays_arr spec0 launch0.win.arr_inj c _ _ 6).trans (flatResult m c)]
  show shapeCast S4x4096x4096 (layer2 (xArr m c) (wArr m c) (aArr m c) (bArr m c) (biasArr m c) (maskArr m c)) _ = _
  rw [xArr_eq, biasArr_eq, maskArr_eq, show wArr m c = m ((c : Thread nD τ).loc main_arg2) from V_main_arg2 m c,
    show aArr m c = m ((c : Thread nD τ).loc main_arg4) from V_main_arg4 m c,
    show bArr m c = m ((c : Thread nD τ).loc main_arg5) from V_main_arg5 m c]
  exact unflatten_layer2 _ _ _ _ _ _ _ _ _ _

/-- Every weakly fair execution of the program ends with the result array at the layer of the arguments and the
    arguments unchanged. -/
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Tiles

end
-- ==== Proof.RefValue.lean ====
/-
  The reference computes the layer.

  Read one operation at a time, entry (b, s, o) of the reference's result is
      (sum_i x(b, s, i) * W(o, i) + bias(o)) + ((sum_r (sum_i x(b, s, i) * A(r, i)) * B(o, r)) * 2) * mask(b, s),
  where mask is the comparison of the token ids with 7 converted to a float array. Multiplication of extended reals
  is associative, so the last product is (sum_r …) * (2 * mask(b, s)), the form the kernel computes.
-/
import proofs.«128327_j25752623907395_1_alg».proof.Proof.Gen.ReferenceIdeal.Read
import proofs.«128327_j25752623907395_1_alg».proof.Proof.Flatten

noncomputable section

namespace Cert.ReferenceIdeal.RefValue

open Idealize.ShloMosaic Idealize.ShloMosaic.ValueIdx Cert.ReferenceIdeal Cert.ReferenceIdeal.Gen Cert.ReferenceIdeal.Read Cert.RowSums
open scoped BigOperators

/-- The reference's result is the layer of its arguments, the mask being its own comparison-and-convert stage. -/
theorem result_eq_layer3 (x0 : (⟨S4x4096x4096, .f32⟩ : BufTy).Contents (Elt Ideal)) (x1 : (⟨S4x4096, .i32⟩ : BufTy).Contents (Elt Ideal))
    (x2 : (⟨S4096x4096, .f32⟩ : BufTy).Contents (Elt Ideal)) (x3 : (⟨S4096, .f32⟩ : BufTy).Contents (Elt Ideal))
    (x4 : (⟨S8x4096, .f32⟩ : BufTy).Contents (Elt Ideal)) (x5 : (⟨S4096x8, .f32⟩ : BufTy).Contents (Elt Ideal)) :
    val_main_v14 (F := Ideal) x0 x1 x2 x3 x4 x5 = layer3 x0 (val_main_v10 (F := Ideal) x1) x2 x3 x4 x5 := by
  funext j
  obtain ⟨b, s, o, rfl⟩ : ∃ (b : Fin 4) (s : Fin 4096) (o : Fin 4096), j = ix3 b s o := ⟨j 0, j 1, j 2, eq_ix3 j⟩
  have el0 : ∀ k : Fin 4096, lidx_main_v0 (ix3 b s o) k = ix3 b s k := fun k =>
    funext fun a => Fin.ext (by match a with | ⟨0, _⟩ => rfl | ⟨1, _⟩ => rfl | ⟨2, _⟩ => rfl)
  have er0 : ∀ k : Fin 4096, ridx_main_v0 (ix3 b s o) k = ix2 o k := fun k =>
    funext fun a => Fin.ext (by match a with | ⟨0, _⟩ => rfl | ⟨1, _⟩ => rfl)
  have eb : idx_main_v1 (idx_main_v2 (ix3 b s o)) = ix1 o :=
    funext fun a => Fin.ext (by match a with | ⟨0, _⟩ => rfl)
  have el5 : ∀ r : Fin 8, lidx_main_v5 (ix3 b s o) r = ix3 b s r := fun r =>
    funext fun a => Fin.ext (by match a with | ⟨0, _⟩ => rfl | ⟨1, _⟩ => rfl | ⟨2, _⟩ => rfl)
  have er5 : ∀ r : Fin 8, ridx_main_v5 (ix3 b s o) r = ix2 o r := fun r =>
    funext fun a => Fin.ext (by match a with | ⟨0, _⟩ => rfl | ⟨1, _⟩ => rfl)
  have el4 : ∀ (r : Fin 8) (k : Fin 4096), lidx_main_v4 (ix3 b s r) k = ix3 b s k := fun r k =>
    funext fun a => Fin.ext (by match a with | ⟨0, _⟩ => rfl | ⟨1, _⟩ => rfl | ⟨2, _⟩ => rfl)
  have er4 : ∀ (r : Fin 8) (k : Fin 4096), ridx_main_v4 (ix3 b s r) k = ix2 r k := fun r k =>
    funext fun a => Fin.ext (by match a with | ⟨0, _⟩ => rfl | ⟨1, _⟩ => rfl)
  have em : idx_main_v11 (idx_main_v12 (ix3 b s o)) = ix2 b s :=
    funext fun a => Fin.ext (by match a with | ⟨0, _⟩ => rfl | ⟨1, _⟩ => rfl)
  rw [val_main_v14_apply, val_main_v3_apply, val_main_v13_apply, val_main_v0_apply, val_main_v2_apply, val_main_v1_apply,
    val_main_v7_apply, val_main_v5_apply, val_main_v12_apply, val_main_v11_apply, val_main_v6_apply, val_main_cst_apply]
  simp only [val_main_v4_apply, el0, er0, eb, el5, er5, el4, er4, em, Ideal.addf_def, Ideal.mulf_def, Ideal.ofBits_def]
  unfold layer3
  rw [mul_assoc]

end Cert.ReferenceIdeal.RefValue

end
-- ==== Proof.lean ====
/-
  A gated low-rank-adapted linear layer: kernel against reference.

  For x [4, 4096, 4096], token ids [4, 4096], W [4096, 4096], bias [4096], A [8, 4096] and B [4096, 8] both programs
  compute, for batch b, position s and output feature o,
      (sum_i x(b, s, i) * W(o, i) + bias(o)) + (sum_r (sum_i x(b, s, i) * A(r, i)) * B(o, r)) * (2 * mask(b, s)),
  mask(b, s) being 1.0 where the token id is 7 and 0.0 elsewhere.

  The kernel flattens (b, s) to one row axis of 16384 rows and runs a 32 x 4 x 4 grid: for each tile of 512 rows and
  1024 output features it accumulates, over four slices of 1024 input features, the base dot products x . W and the
  eight low-rank dot products x . A in two running sums, and at the fourth slice adds the bias and the low-rank term
  times 2 * mask. The reference contracts all 4096 input features at once and multiplies the low-rank term by 2 and
  then by the mask. Over the extended reals the two agree: a sum of 4096 terms is the sum of its four slices' sums
  added one after the other from 0 (associativity and commutativity of +, 0 neutral), and (u * 2) * v = u * (2 * v)
  (associativity of *). No input has to be finite for that, so the precondition is not used. The narrowing of the
  matmul operands to bf16 is the identity on extended reals.

  The three programs run and keep their arguments (the frames); nothing was rewritten when the kernel was
  idealized, so there is nothing to preserve.
-/
import proofs.«128327_j25752623907395_1_alg».proof.Defs
import proofs.«128327_j25752623907395_1_alg».proof.Proof.Gen.Kernel
import proofs.«128327_j25752623907395_1_alg».proof.Proof.Gen.Kernel.Frame
import proofs.«128327_j25752623907395_1_alg».proof.Proof.Gen.KernelIdeal
import proofs.«128327_j25752623907395_1_alg».proof.Proof.Gen.KernelIdeal.Frame
import proofs.«128327_j25752623907395_1_alg».proof.Proof.Gen.ReferenceIdeal
import proofs.«128327_j25752623907395_1_alg».proof.Proof.Gen.ReferenceIdeal.Run
import proofs.«128327_j25752623907395_1_alg».proof.Proof.Gen.ReferenceIdeal.Read
import proofs.«128327_j25752623907395_1_alg».proof.Proof.Gen.Pre_finite_inputs
import proofs.«128327_j25752623907395_1_alg».proof.Proof.KernelValue
import proofs.«128327_j25752623907395_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their arguments, entry by entry, and the arguments agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq_layer3, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
